-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x2 : Shape := ⟨2, ![16384, 2]⟩
abbrev S64x512x1024 : Shape := ⟨3, ![64, 512, 1024]⟩
abbrev S64x1024x512 : Shape := ⟨3, ![64, 1024, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x2 : S_.BroadcastsInDim S16384x2 (![] : Fin 0 → Fin S16384x2.rank)
  reducesTo_S16384x2_S_d0_1 : S16384x2.ReducesTo [0, 1] S_
  bcast_S_S64x512x1024 : S_.BroadcastsInDim S64x512x1024 (![] : Fin 0 → Fin S64x512x1024.rank)
  reducesTo_S64x512x1024_S_d0_1_2 : S64x512x1024.ReducesTo [0, 1, 2] S_
  bcast_S_S64x1024x512 : S_.BroadcastsInDim S64x1024x512 (![] : Fin 0 → Fin S64x1024x512.rank)
  reducesTo_S64x1024x512_S_d0_1_2 : S64x1024x512.ReducesTo [0, 1, 2] S_

variable [Facts]

def fn_part1 {F : FTy → Type} [FloatOps F] (main_v13 : IVec S_ 1) (main_v16 : IVec S64x1024x512 1) : IVec S_ 1 :=
  let main_c_5 : IVec S_ 1 := constantI S_ 1 1#1
  let main_v17 : IVec S_ 1 := (fun x v => Host.reduce IntOp.andi x v reducesTo_S64x1024x512_S_d0_1_2 h_S_) main_v16 main_c_5
  let main_v18 : IVec S_ 1 := andi main_v13 main_v17
  main_v18

def fn {F : FTy → Type} [FloatOps F] (main_arg0 : FVec F S16384x512 .f32) (main_arg1 : FVec F S16384x2 .f32) (main_arg2 : IVec S16384x2 32) (main_arg3 : FVec F S64x512x1024 .f32) (main_arg4 : FVec F S64x1024x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x2 .f32 := Host.absf main_arg1
  let main_cst_0 : FVec F S_ .f32 := constant S_ .f32 0x7F800000#32
  let main_v5 : FVec F S16384x2 .f32 := broadcastInDim S16384x2 ![] bcast_S_S16384x2 main_cst_0
  let main_v6 : IVec S16384x2 1 := cmpf .olt main_v4 main_v5
  let main_c_1 : IVec S_ 1 := constantI S_ 1 1#1
  let main_v7 : IVec S_ 1 := (fun x v => Host.reduce IntOp.andi x v reducesTo_S16384x2_S_d0_1 h_S_) main_v6 main_c_1
  let main_v8 : IVec S_ 1 := andi main_v3 main_v7
  let main_v9 : FVec F S64x512x1024 .f32 := Host.absf main_arg3
  let main_cst_2 : FVec F S_ .f32 := constant S_ .f32 0x7F800000#32
  let main_v10 : FVec F S64x512x1024 .f32 := broadcastInDim S64x512x1024 ![] bcast_S_S64x512x1024 main_cst_2
  let main_v11 : IVec S64x512x1024 1 := cmpf .olt main_v9 main_v10
  let main_c_3 : IVec S_ 1 := constantI S_ 1 1#1
  let main_v12 : IVec S_ 1 := (fun x v => Host.reduce IntOp.andi x v reducesTo_S64x512x1024_S_d0_1_2 h_S_) main_v11 main_c_3
  let main_v13 : IVec S_ 1 := andi main_v8 main_v12
  let main_v14 : FVec F S64x1024x512 .f32 := Host.absf main_arg4
  let main_cst_4 : FVec F S_ .f32 := constant S_ .f32 0x7F800000#32
  let main_v15 : FVec F S64x1024x512 .f32 := broadcastInDim S64x1024x512 ![] bcast_S_S64x1024x512 main_cst_4
  let main_v16 : IVec S64x1024x512 1 := cmpf .olt main_v14 main_v15
  fn_part1 (F := F) main_v13 main_v16
-- ==== Kernel.lean ====
abbrev S16384x512 : Shape := ⟨2, ![16384, 512]⟩
abbrev S16384x2 : Shape := ⟨2, ![16384, 2]⟩
abbrev S64x512x1024 : Shape := ⟨3, ![64, 512, 1024]⟩
abbrev S64x1024x512 : Shape := ⟨3, ![64, 1024, 512]⟩
abbrev S32768 : Shape := ⟨1, ![32768]⟩
abbrev S_ : Shape := ⟨0, ![]⟩
abbrev S32768x1 : Shape := ⟨2, ![32768, 1]⟩
abbrev S32768x512 : Shape := ⟨2, ![32768, 512]⟩
abbrev S64x512x512 : Shape := ⟨3, ![64, 512, 512]⟩
abbrev S64x512x1 : Shape := ⟨3, ![64, 512, 1]⟩
abbrev S1x512x512 : Shape := ⟨3, ![1, 512, 512]⟩
abbrev S1x512x1024 : Shape := ⟨3, ![1, 512, 1024]⟩
abbrev S1x1024x512 : Shape := ⟨3, ![1, 1024, 512]⟩
abbrev S1x512x1 : Shape := ⟨3, ![1, 512, 1]⟩
abbrev S512x512 : Shape := ⟨2, ![512, 512]⟩
abbrev S512x1024 : Shape := ⟨2, ![512, 1024]⟩
abbrev S1024x512 : Shape := ⟨2, ![1024, 512]⟩
abbrev S512x1 : Shape := ⟨2, ![512, 1]⟩

abbrev nBuf : Space → Nat
  | .hbm => 72
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x2, .f32⟩
  | .hbm, ⟨2, _⟩ => ⟨S16384x2, .i32⟩
  | .hbm, ⟨3, _⟩ => ⟨S64x512x1024, .f32⟩
  | .hbm, ⟨4, _⟩ => ⟨S64x1024x512, .f32⟩
  | .hbm, ⟨5, _⟩ => ⟨S32768, .i32⟩
  | .hbm, ⟨6, _⟩ => ⟨S32768, .f32⟩
  | .hbm, ⟨7, _⟩ => ⟨S32768, .i32⟩
  | .hbm, ⟨8, _⟩ => ⟨S_, .i32⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S_, .i32⟩
  | .hbm, ⟨14, _⟩ => ⟨S32768, .i32⟩
  | .hbm, ⟨15, _⟩ => ⟨S32768, .i1⟩
  | .hbm, ⟨16, _⟩ => ⟨S32768, .i32⟩
  | .hbm, ⟨17, _⟩ => ⟨S32768, .i32⟩
  | .hbm, ⟨18, _⟩ => ⟨S_, .i32⟩
  | .hbm, ⟨19, _⟩ => ⟨S32768, .i32⟩
  | .hbm, ⟨20, _⟩ => ⟨S32768, .i1⟩
  | .hbm, ⟨21, _⟩ => ⟨S32768, .i1⟩
  | .hbm, ⟨22, _⟩ => ⟨S_, .i32⟩
  | .hbm, ⟨23, _⟩ => ⟨S32768, .i32⟩
  | .hbm, ⟨24, _⟩ => ⟨S32768, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S32768, .i32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S32768, .i32⟩
  | .hbm, ⟨36, _⟩ => ⟨S32768x1, .i32⟩
  | .hbm, ⟨37, _⟩ => ⟨S32768, .i32⟩
  | .hbm, ⟨38, _⟩ => ⟨S_, .i32⟩
  | .hbm, ⟨39, _⟩ => ⟨S32768, .i32⟩
  | .hbm, ⟨40, _⟩ => ⟨S32768, .i1⟩
  | .hbm, ⟨41, _⟩ => ⟨S_, .i32⟩
  | .hbm, ⟨42, _⟩ => ⟨S32768, .i32⟩
  | .hbm, ⟨43, _⟩ => ⟨S32768, .i32⟩
  | .hbm, ⟨44, _⟩ => ⟨S32768, .i32⟩
  | .hbm, ⟨45, _⟩ => ⟨S32768x1, .i32⟩
  | .hbm, ⟨46, _⟩ => ⟨S32768, .f32⟩
  | .hbm, ⟨47, _⟩ => ⟨S16384x512, .bf16⟩
  | .hbm, ⟨48, _⟩ => ⟨S_, .i32⟩
  | .hbm, ⟨49, _⟩ => ⟨S32768, .i32⟩
  | .hbm, ⟨50, _⟩ => ⟨S32768, .i1⟩
  | .hbm, ⟨51, _⟩ => ⟨S_, .i32⟩
  | .hbm, ⟨52, _⟩ => ⟨S32768, .i32⟩
  | .hbm, ⟨53, _⟩ => ⟨S32768, .i32⟩
  | .hbm, ⟨54, _⟩ => ⟨S32768, .i32⟩
  | .hbm, ⟨55, _⟩ => ⟨S32768x1, .i32⟩
  | .hbm, ⟨56, _⟩ => ⟨S32768x512, .bf16⟩
  | .hbm, ⟨57, _⟩ => ⟨S64x512x512, .bf16⟩
  | .hbm, ⟨58, _⟩ => ⟨S64x512x1, .f32⟩
  | .hbm, ⟨59, _⟩ => ⟨S64x512x512, .f32⟩
  | .hbm, ⟨60, _⟩ => ⟨S32768x512, .f32⟩
  | .hbm, ⟨61, _⟩ => ⟨S_, .f32⟩
  | .hbm, ⟨62, _⟩ => ⟨S16384x512, .f32⟩
  | .hbm, ⟨63, _⟩ => ⟨S_, .i32⟩
  | .hbm, ⟨64, _⟩ => ⟨S32768, .i32⟩
  | .hbm, ⟨65, _⟩ => ⟨S32768, .i1⟩
  | .hbm, ⟨66, _⟩ => ⟨S_, .i32⟩
  | .hbm, ⟨67, _⟩ => ⟨S32768, .i32⟩
  | .hbm, ⟨68, _⟩ => ⟨S32768, .i32⟩
  | .hbm, ⟨69, _⟩ => ⟨S32768, .i32⟩
  | .hbm, ⟨70, _⟩ => ⟨S32768x1, .i32⟩
  | .hbm, ⟨71, _⟩ => ⟨S16384x512, .f32⟩
  | .local _ .vmem, ⟨0, _⟩ => ⟨S1x512x512, .bf16⟩
  | .local _ .vmem, ⟨1, _⟩ => ⟨S1x512x512, .bf16⟩
  | .local _ .vmem, ⟨2, _⟩ => ⟨S1x512x1024, .f32⟩
  | .local _ .vmem, ⟨3, _⟩ => ⟨S1x512x1024, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1, .f32⟩
  | .local _ .vmem, ⟨7, _⟩ => ⟨S1x512x1, .f32⟩
  | .local _ .vmem, ⟨8, _⟩ => ⟨S1x512x512, .f32⟩
  | .local _ .vmem, ⟨9, _⟩ => ⟨S1x512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_call1_v0 : Ref sig .tc := ⟨.hbm, 26, rfl⟩
abbrev main_call1_v1_0 : Ref sig .tc := ⟨.hbm, 27, rfl⟩
abbrev main_v4 : Ref sig .tc := ⟨.hbm, 28, rfl⟩
abbrev main_c_0 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c_2 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_c_5 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst : Ref sig .tc := ⟨.hbm, 61, rfl⟩
abbrev main_v31 : Ref sig .tc := ⟨.hbm, 62, rfl⟩
abbrev main_c_6 : Ref sig .tc := ⟨.hbm, 63, rfl⟩
abbrev main_v32 : Ref sig .tc := ⟨.hbm, 64, rfl⟩
abbrev main_v33 : Ref sig .tc := ⟨.hbm, 65, rfl⟩
abbrev main_c_7 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16384x2_S32768 : S16384x2.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  bitsLt_bf16_f32 : FTy.bits .bf16 < FTy.bits .f32
  shapeCasts_S32768x512_S64x512x512 : S32768x512.ShapeCasts S64x512x512
  shapeCasts_S32768_S64x512x1 : S32768.ShapeCasts S64x512x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x512 : S512x1.Broadcasts S512x512
  shapeCasts_S512x512_S1x512x512 : S512x512.ShapeCasts S1x512x512
  shapeCasts_S64x512x512_S32768x512 : S64x512x512.ShapeCasts S32768x512
  bcast_S_S16384x512 : S_.BroadcastsInDim S16384x512 (![] : Fin 0 → Fin S16384x512.rank)
  gather_S32768_S32768x1_S32768_n_0_n_n_0_1_1_wf : GatherDims.WF S32768 S32768x1 S32768 [] [0] [] [0] [] 1 ![1]
  gather_S16384x512_S32768x1_S32768x512_1_0_n_n_0_1_1512_wf : GatherDims.WF S16384x512 S32768x1 S32768x512 [1] [0] [] [0] [] 1 ![1, 512]
  dot_S512x512_S512x1024_S512x1024_1_0_0_1_n_n_wf : DotDims.WF S512x512 S512x1024 S512x1024 [1] [0] [0] [1] [] []
  dot_S512x1024_S1024x512_S512x512_1_0_0_1_n_n_wf : DotDims.WF S512x1024 S1024x512 S512x512 [1] [0] [0] [1] [] []
  scatter_S16384x512_S32768x1_S32768x512_1_0_0_1_wf : ScatterDims.WF S16384x512 S32768x1 S32768x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .bf16 = 32 ∨ (Rect.block (s := S64x512x512) S1x512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S64x512x1024.size a
  hwx0_1 : ∀ i : grid0.Coords, EltTy.bits .f32 = 32 ∨ (Rect.block (s := S64x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S64x1024x512.size a
  hwx0_2 : ∀ i : grid0.Coords, EltTy.bits .f32 = 32 ∨ (Rect.block (s := S64x1024x512) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S64x512x1.size a
  hwx0_3 : ∀ i : grid0.Coords, EltTy.bits .f32 = 32 ∨ (Rect.block (s := S64x512x1) S1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S64x512x512.size a
  hwx0_4 : ∀ i : grid0.Coords, EltTy.bits .f32 = 32 ∨ (Rect.block (s := S64x512x512) S1x512x512.size (cc0_transform_4 i) (hinb0_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S32768_S32768x1_S32768_n_0_n_n_0_1_1 : GatherDims S32768 S32768x1 S32768 where
  offsetDims := []
  collapsedSliceDims := [0]
  operandBatchingDims := []
  startIndicesBatchingDims := []
  startIndexMap := [0]
  indexVectorDim := 1
  sliceSizes := ![1]
  wf := gather_S32768_S32768x1_S32768_n_0_n_n_0_1_1_wf
def gather_S16384x512_S32768x1_S32768x512_1_0_n_n_0_1_1512 : GatherDims S16384x512 S32768x1 S32768x512 where
  offsetDims := [1]
  collapsedSliceDims := [0]
  operandBatchingDims := []
  startIndicesBatchingDims := []
  startIndexMap := [0]
  indexVectorDim := 1
  sliceSizes := ![1, 512]
  wf := gather_S16384x512_S32768x1_S32768x512_1_0_n_n_0_1_1512_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def scatter_S16384x512_S32768x1_S32768x512_1_0_0_1 : ScatterDims S16384x512 S32768x1 S32768x512 where
  updateWindowDims := [1]
  insertedWindowDims := [0]
  scatterDimsToOperandDims := [0]
  indexVectorDim := 1
  wf := scatter_S16384x512_S32768x1_S32768x512_1_0_0_1_wf

abbrev win0_0 : Pipeline.Window sig grid0 :=
  Pipeline.Window.ofSpec (Memref.whole main_v27) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x2 : Shape := ⟨2, ![16384, 2]⟩
abbrev S64x512x1024 : Shape := ⟨3, ![64, 512, 1024]⟩
abbrev S64x1024x512 : Shape := ⟨3, ![64, 1024, 512]⟩
abbrev S32768 : Shape := ⟨1, ![32768]⟩
abbrev S_ : Shape := ⟨0, ![]⟩
abbrev S32768x1 : Shape := ⟨2, ![32768, 1]⟩
abbrev S32768x512 : Shape := ⟨2, ![32768, 512]⟩
abbrev S64x512x512 : Shape := ⟨3, ![64, 512, 512]⟩

abbrev nBuf : Space → Nat
  | .hbm => 83
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x2, .f32⟩
  | .hbm, ⟨2, _⟩ => ⟨S16384x2, .i32⟩
  | .hbm, ⟨3, _⟩ => ⟨S64x512x1024, .f32⟩
  | .hbm, ⟨4, _⟩ => ⟨S64x1024x512, .f32⟩
  | .hbm, ⟨5, _⟩ => ⟨S32768, .i32⟩
  | .hbm, ⟨6, _⟩ => ⟨S32768, .f32⟩
  | .hbm, ⟨7, _⟩ => ⟨S32768, .i32⟩
  | .hbm, ⟨8, _⟩ => ⟨S_, .i32⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S_, .i32⟩
  | .hbm, ⟨14, _⟩ => ⟨S32768, .i32⟩
  | .hbm, ⟨15, _⟩ => ⟨S32768, .i1⟩
  | .hbm, ⟨16, _⟩ => ⟨S32768, .i32⟩
  | .hbm, ⟨17, _⟩ => ⟨S32768, .i32⟩
  | .hbm, ⟨18, _⟩ => ⟨S_, .i32⟩
  | .hbm, ⟨19, _⟩ => ⟨S32768, .i32⟩
  | .hbm, ⟨20, _⟩ => ⟨S32768, .i1⟩
  | .hbm, ⟨21, _⟩ => ⟨S32768, .i1⟩
  | .hbm, ⟨22, _⟩ => ⟨S_, .i32⟩
  | .hbm, ⟨23, _⟩ => ⟨S32768, .i32⟩
  | .hbm, ⟨24, _⟩ => ⟨S32768, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S32768, .i32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S32768, .i32⟩
  | .hbm, ⟨36, _⟩ => ⟨S32768x1, .i32⟩
  | .hbm, ⟨37, _⟩ => ⟨S32768, .i32⟩
  | .hbm, ⟨38, _⟩ => ⟨S_, .i32⟩
  | .hbm, ⟨39, _⟩ => ⟨S32768, .i32⟩
  | .hbm, ⟨40, _⟩ => ⟨S32768, .i1⟩
  | .hbm, ⟨41, _⟩ => ⟨S_, .i32⟩
  | .hbm, ⟨42, _⟩ => ⟨S32768, .i32⟩
  | .hbm, ⟨43, _⟩ => ⟨S32768, .i32⟩
  | .hbm, ⟨44, _⟩ => ⟨S32768, .i32⟩
  | .hbm, ⟨45, _⟩ => ⟨S32768x1, .i32⟩
  | .hbm, ⟨46, _⟩ => ⟨S32768, .f32⟩
  | .hbm, ⟨47, _⟩ => ⟨S_, .i32⟩
  | .hbm, ⟨48, _⟩ => ⟨S32768, .i32⟩
  | .hbm, ⟨49, _⟩ => ⟨S32768, .i1⟩
  | .hbm, ⟨50, _⟩ => ⟨S_, .i32⟩
  | .hbm, ⟨51, _⟩ => ⟨S32768, .i32⟩
  | .hbm, ⟨52, _⟩ => ⟨S32768, .i32⟩
  | .hbm, ⟨53, _⟩ => ⟨S32768, .i32⟩
  | .hbm, ⟨54, _⟩ => ⟨S32768x1, .i32⟩
  | .hbm, ⟨55, _⟩ => ⟨S32768x512, .f32⟩
  | .hbm, ⟨56, _⟩ => ⟨S64x512x512, .f32⟩
  | .hbm, ⟨57, _⟩ => ⟨S64x512x1024, .f32⟩
  | .hbm, ⟨58, _⟩ => ⟨S64x512x1024, .f32⟩
  | .hbm, ⟨59, _⟩ => ⟨S64x512x1024, .f32⟩
  | .hbm, ⟨60, _⟩ => ⟨S_, .f32⟩
  | .hbm, ⟨61, _⟩ => ⟨S64x512x1024, .f32⟩
  | .hbm, ⟨62, _⟩ => ⟨S64x512x1024, .f32⟩
  | .hbm, ⟨63, _⟩ => ⟨S_, .f32⟩
  | .hbm, ⟨64, _⟩ => ⟨S64x512x1024, .f32⟩
  | .hbm, ⟨65, _⟩ => ⟨S64x512x1024, .f32⟩
  | .hbm, ⟨66, _⟩ => ⟨S64x512x1024, .f32⟩
  | .hbm, ⟨67, _⟩ => ⟨S64x512x512, .f32⟩
  | .hbm, ⟨68, _⟩ => ⟨S32768x512, .f32⟩
  | .hbm, ⟨69, _⟩ => ⟨S32768x1, .f32⟩
  | .hbm, ⟨70, _⟩ => ⟨S32768x512, .f32⟩
  | .hbm, ⟨71, _⟩ => ⟨S32768x512, .f32⟩
  | .hbm, ⟨72, _⟩ => ⟨S_, .f32⟩
  | .hbm, ⟨73, _⟩ => ⟨S16384x512, .f32⟩
  | .hbm, ⟨74, _⟩ => ⟨S_, .i32⟩
  | .hbm, ⟨75, _⟩ => ⟨S32768, .i32⟩
  | .hbm, ⟨76, _⟩ => ⟨S32768, .i1⟩
  | .hbm, ⟨77, _⟩ => ⟨S_, .i32⟩
  | .hbm, ⟨78, _⟩ => ⟨S32768, .i32⟩
  | .hbm, ⟨79, _⟩ => ⟨S32768, .i32⟩
  | .hbm, ⟨80, _⟩ => ⟨S32768, .i32⟩
  | .hbm, ⟨81, _⟩ => ⟨S32768x1, .i32⟩
  | .hbm, ⟨82, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_call1_v0 : Ref sig .tc := ⟨.hbm, 26, rfl⟩
abbrev main_call1_v1_0 : Ref sig .tc := ⟨.hbm, 27, rfl⟩
abbrev main_v4 : Ref sig .tc := ⟨.hbm, 28, rfl⟩
abbrev main_c_0 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c_2 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst : Ref sig .tc := ⟨.hbm, 72, rfl⟩
abbrev main_v34 : Ref sig .tc := ⟨.hbm, 73, rfl⟩
abbrev main_c_6 : Ref sig .tc := ⟨.hbm, 74, rfl⟩
abbrev main_v35 : Ref sig .tc := ⟨.hbm, 75, rfl⟩
abbrev main_v36 : Ref sig .tc := ⟨.hbm, 76, rfl⟩
abbrev main_c_7 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩

abbrev nD : Nat := 1
abbrev τ : Topo := Topo.v7x

variable {F : FTy → Type} [FloatOps F]

class Facts₀ : Prop where
  shapeCasts_S16384x2_S32768 : S16384x2.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  shapeCasts_S32768x512_S64x512x512 : S32768x512.ShapeCasts S64x512x512
  bcast_S_S64x512x1024 : S_.BroadcastsInDim S64x512x1024 (![] : Fin 0 → Fin S64x512x1024.rank)
  shapeCasts_S64x512x512_S32768x512 : S64x512x512.ShapeCasts S32768x512
  bcast_S32768x1_S32768x512_0_1 : S32768x1.BroadcastsInDim S32768x512 (![0, 1] : Fin 2 → Fin S32768x512.rank)
  bcast_S_S16384x512 : S_.BroadcastsInDim S16384x512 (![] : Fin 0 → Fin S16384x512.rank)
  gather_S32768_S32768x1_S32768_n_0_n_n_0_1_1_wf : GatherDims.WF S32768 S32768x1 S32768 [] [0] [] [0] [] 1 ![1]
  gather_S16384x512_S32768x1_S32768x512_1_0_n_n_0_1_1512_wf : GatherDims.WF S16384x512 S32768x1 S32768x512 [1] [0] [] [0] [] 1 ![1, 512]
  dot_S64x512x512_S64x512x1024_S64x512x1024_2_1_1_2_0_0_wf : DotDims.WF S64x512x512 S64x512x1024 S64x512x1024 [2] [1] [1] [2] [0] [0]
  dot_S64x512x1024_S64x1024x512_S64x512x512_2_1_1_2_0_0_wf : DotDims.WF S64x512x1024 S64x1024x512 S64x512x512 [2] [1] [1] [2] [0] [0]
  scatter_S16384x512_S32768x1_S32768x512_1_0_0_1_wf : ScatterDims.WF S16384x512 S32768x1 S32768x512 [1] [0] [0] 1

variable [Facts₀]

def comparator_i32_i32_d0 : BitVec 32 × BitVec 32 → BitVec 32 × BitVec 32 → BitVec 1 :=
  fun l r =>
    let v2 := IntOp.cmpi .slt l.1 r.1
    v2
def gather_S32768_S32768x1_S32768_n_0_n_n_0_1_1 : GatherDims S32768 S32768x1 S32768 where
  offsetDims := []
  collapsedSliceDims := [0]
  operandBatchingDims := []
  startIndicesBatchingDims := []
  startIndexMap := [0]
  indexVectorDim := 1
  sliceSizes := ![1]
  wf := gather_S32768_S32768x1_S32768_n_0_n_n_0_1_1_wf
def gather_S16384x512_S32768x1_S32768x512_1_0_n_n_0_1_1512 : GatherDims S16384x512 S32768x1 S32768x512 where
  offsetDims := [1]
  collapsedSliceDims := [0]
  operandBatchingDims := []
  startIndicesBatchingDims := []
  startIndexMap := [0]
  indexVectorDim := 1
  sliceSizes := ![1, 512]
  wf := gather_S16384x512_S32768x1_S32768x512_1_0_n_n_0_1_1512_wf
def dot_S64x512x512_S64x512x1024_S64x512x1024_2_1_1_2_0_0 : DotDims S64x512x512 S64x512x1024 S64x512x1024 where
  lhsContracting := [2]
  rhsContracting := [1]
  lhsNonContracting := [1]
  rhsNonContracting := [2]
  lhsBatch := [0]
  rhsBatch := [0]
  wf := dot_S64x512x512_S64x512x1024_S64x512x1024_2_1_1_2_0_0_wf
def dot_S64x512x1024_S64x1024x512_S64x512x512_2_1_1_2_0_0 : DotDims S64x512x1024 S64x1024x512 S64x512x512 where
  lhsContracting := [2]
  rhsContracting := [1]
  lhsNonContracting := [1]
  rhsNonContracting := [2]
  lhsBatch := [0]
  rhsBatch := [0]
  wf := dot_S64x512x1024_S64x1024x512_S64x512x512_2_1_1_2_0_0_wf
def scatter_S16384x512_S32768x1_S32768x512_1_0_0_1 : ScatterDims S16384x512 S32768x1 S32768x512 where
  updateWindowDims := [1]
  insertedWindowDims := [0]
  scatterDimsToOperandDims := [0]
  indexVectorDim := 1
  wf := scatter_S16384x512_S32768x1_S32768x512_1_0_0_1_wf

class Facts : Prop extends Facts₀ where

variable [Facts]
-- ==== Proof.Spec.lean ====
/-
  A mixture-of-experts feed-forward layer with balanced routing, as one function of its five arrays.

  Every token (16384 of them, 512 features each) is assigned to two experts; the 32768 assignments are sorted by
  expert id, so that the sorted list splits into 64 consecutive groups of 512 assignments, group e going through
  expert e whatever ids the input holds. An assignment's row x goes through its expert's two matrices,

      y_h = Σ_f silu (Σ_k x_k · W1_{k f}) · W2_{f h},      silu z = z · logistic z,

  is scaled by the assignment's routing weight, and is added into its token's output row.

  The bookkeeping that both programs share — which token an assignment belongs to, the stable sort by expert id,
  the gathers along the sorted order, the final scatter-add — is stated here once, as operations on whole arrays,
  and is never opened: the two programs differ only in how the [32768, 512] array of weighted expert outputs is
  computed (`grouped`, group by group with the weight applied inside, against `refWeighted`, two batched matrix
  products with the weight applied after flattening).
-/
import Idealize.ShloMosaic.PureOps
import Idealize.ShloMosaic.PureOps.Ideal
import Idealize.ShloMosaic.Lib.ValueIdx

noncomputable section

namespace Cert.MoE

open Idealize.ShloMosaic Idealize.ShloMosaic.ValueIdx

/-! ## Shapes -/

abbrev SB2 : Shape := ⟨2, ![16384, 2]⟩
abbrev SBH : Shape := ⟨2, ![16384, 512]⟩
abbrev SN : Shape := ⟨1, ![32768]⟩
abbrev SN1 : Shape := ⟨2, ![32768, 1]⟩
abbrev SNH : Shape := ⟨2, ![32768, 512]⟩
abbrev S0 : Shape := ⟨0, ![]⟩
abbrev SX : Shape := ⟨3, ![64, 512, 512]⟩
abbrev SW1 : Shape := ⟨3, ![64, 512, 1024]⟩
abbrev SW2 : Shape := ⟨3, ![64, 1024, 512]⟩
abbrev SG1 : Shape := ⟨3, ![64, 512, 1]⟩

theorem casts_B2_N : SB2.ShapeCasts SN := by decide
theorem casts_NH_X : SNH.ShapeCasts SX := by decide
theorem casts_X_NH : SX.ShapeCasts SNH := by decide
theorem casts_N_G1 : SN.ShapeCasts SG1 := by decide
theorem bcast_0_N : S0.BroadcastsInDim SN (![] : Fin 0 → Fin SN.rank) := by decide
theorem bcast_0_BH : S0.BroadcastsInDim SBH (![] : Fin 0 → Fin SBH.rank) := by decide
theorem bcast_0_W1 : S0.BroadcastsInDim SW1 (![] : Fin 0 → Fin SW1.rank) := by decide
theorem bcast_N_N1 : SN.BroadcastsInDim SN1 (![0] : Fin 1 → Fin SN1.rank) := by decide
theorem bcast_N1_NH : SN1.BroadcastsInDim SNH (![0, 1] : Fin 2 → Fin SNH.rank) := by decide

/-! ## The index operations' dimension records -/

/-- Entry r of the result is the operand at the index the r-th start names. -/
def gatherVec : GatherDims SN SN1 SN where
  offsetDims := []
  collapsedSliceDims := [0]
  operandBatchingDims := []
  startIndicesBatchingDims := []
  startIndexMap := [0]
  indexVectorDim := 1
  sliceSizes := ![1]
  wf := by decide

/-- Row r of the result is the operand's row the r-th start names. -/
def gatherRows : GatherDims SBH SN1 SNH where
  offsetDims := [1]
  collapsedSliceDims := [0]
  operandBatchingDims := []
  startIndicesBatchingDims := []
  startIndexMap := [0]
  indexVectorDim := 1
  sliceSizes := ![1, 512]
  wf := by decide

/-- Row r of the updates is added into the operand's row the r-th index names. -/
def scatterRows : ScatterDims SBH SN1 SNH where
  updateWindowDims := [1]
  insertedWindowDims := [0]
  scatterDimsToOperandDims := [0]
  indexVectorDim := 1
  wf := by decide

/-- Per expert, [512, 512] times [512, 1024]. -/
def dotUp : DotDims SX SW1 SW1 where
  lhsContracting := [2]
  rhsContracting := [1]
  lhsNonContracting := [1]
  rhsNonContracting := [2]
  lhsBatch := [0]
  rhsBatch := [0]
  wf := by decide

/-- Per expert, [512, 1024] times [1024, 512]. -/
def dotDown : DotDims SW1 SW2 SX where
  lhsContracting := [2]
  rhsContracting := [1]
  lhsNonContracting := [1]
  rhsNonContracting := [2]
  lhsBatch := [0]
  rhsBatch := [0]
  wf := by decide

/-- The sort's order: signed "less than" on the keys (the expert ids), the carried values ignored. -/
def keyLt : BitVec 32 × BitVec 32 → BitVec 32 × BitVec 32 → BitVec 1 :=
  fun l r => IntOp.cmpi .slt l.1 r.1

/-! ## The shared bookkeeping, on whole arrays -/

/-- A scalar spread over the 32768 assignments. -/
def splat (v : IVec S0 32) : IVec SN 32 := broadcastInDim SN ![] bcast_0_N v

/-- Assignment n belongs to token ⌊n / 2⌋: the quotient rounded toward zero, less one where the signs differ and the
    remainder is not zero. -/
def tokenOf : IVec SN 32 :=
  select
    (andi (cmpi .ne (signi (iotaInDim SN 32 0)) (splat (signi (id (constantI S0 32 2#32)))))
      (cmpi .ne (Host.remsi (iotaInDim SN 32 0) (splat (id (constantI S0 32 2#32)))) (splat (constantI S0 32 0#32))))
    (subi (Host.divsi (iotaInDim SN 32 0) (splat (id (constantI S0 32 2#32)))) (splat (constantI S0 32 1#32)))
    (Host.divsi (iotaInDim SN 32 0) (splat (id (constantI S0 32 2#32))))

/-- An index counted from the end when negative: x + n where x < 0, else x. -/
def wrap (n : BitVec 32) (x : IVec SN 32) : IVec SN 32 :=
  select (cmpi .slt x (splat (constantI S0 32 0#32))) (addi x (splat (constantI S0 32 n))) x

/-- A list of 32768 indices as a column of start indices. -/
def col (x : IVec SN 32) : IVec SN1 32 := broadcastInDim SN1 ![0] bcast_N_N1 x

/-- The assignments' positions, stably sorted by expert id. -/
def order (ids : IVec SB2 32) : IVec SN 32 :=
  (Host.sort2 SN 0 keyLt (shapeCast SN ids casts_B2_N) (iotaInDim SN 32 0)).2

/-- The token of each assignment, in sorted order. -/
def tokSorted (ids : IVec SB2 32) : IVec SN 32 :=
  Host.gather gatherVec tokenOf (col (wrap 32768#32 (order ids)))

/-- The routing weight of each assignment, in sorted order. -/
def wSorted (ew : FVec Ideal SB2 .f32) (ids : IVec SB2 32) : FVec Ideal SN .f32 :=
  Host.gather gatherVec (shapeCast SN ew casts_B2_N) (col (wrap 32768#32 (order ids)))

/-- The sorted assignments' token rows, as start indices into the [16384, 512] arrays. -/
def rows (ids : IVec SB2 32) : IVec SN1 32 := col (wrap 16384#32 (tokSorted ids))

/-- The tokens' feature rows in sorted order, in 64 groups of 512. -/
def xGathered (hs : FVec Ideal SBH .f32) (ids : IVec SB2 32) : FVec Ideal SX .f32 :=
  shapeCast SX (Host.gather gatherRows hs (rows ids)) casts_NH_X

/-- Each assignment's weighted output row added into its token's row of a zero array. -/
def combine (ids : IVec SB2 32) (weighted : FVec Ideal SNH .f32) : FVec Ideal SBH .f32 :=
  Host.scatterAdd scatterRows (broadcastInDim SBH ![] bcast_0_BH (constant S0 .f32 0x00000000#32)) (rows ids) weighted

/-! ## One expert on one row -/

/-- silu z = z · logistic z. -/
def silu (z : EReal) : EReal := z * Ideal.logistic z

/-- A row through one expert, scaled by its routing weight: entry h is (Σ_f silu (Σ_k x_k · W1_{k f}) · W2_{f h}) · w. -/
def ffnRow (x : Fin 512 → EReal) (W1 : Fin 512 → Fin 1024 → EReal) (W2 : Fin 1024 → Fin 512 → EReal) (w : EReal)
    (h : Fin 512) : EReal :=
  (∑ f : Fin 1024, silu (∑ k : Fin 512, x k * W1 k f) * W2 f h) * w

/-- The 64 groups through their experts: entry (e, c, h) is row c of group e through expert e, scaled by the group's
    c-th weight. -/
def grouped (xg : FVec Ideal SX .f32) (W1 : FVec Ideal SW1 .f32) (W2 : FVec Ideal SW2 .f32) (w : FVec Ideal SG1 .f32) :
    FVec Ideal SX .f32 :=
  fun i => ffnRow (fun k => xg (ix3 (i 0) (i 1) k)) (fun k f => W1 (ix3 (i 0) k f)) (fun f h => W2 (ix3 (i 0) f h))
    (w (ix3 (i 0) (i 1) 0)) (i 2)

/-! ## The two programs' results -/

/-- Group by group, the weight applied inside each group; then flattened to [32768, 512] and combined. -/
def kerOut (hs : FVec Ideal SBH .f32) (ew : FVec Ideal SB2 .f32) (ids : IVec SB2 32) (W1 : FVec Ideal SW1 .f32)
    (W2 : FVec Ideal SW2 .f32) : FVec Ideal SBH .f32 :=
  combine ids (shapeCast SNH (grouped (xGathered hs ids) W1 W2 (shapeCast SG1 (wSorted ew ids) casts_N_G1)) casts_X_NH)

/-- silu as negate, exponential, add one, divide into one, multiply. -/
def siluHost (z : FVec Ideal SW1 .f32) : FVec Ideal SW1 .f32 :=
  mulf z (Host.divf (broadcastInDim SW1 ![] bcast_0_W1 (constant S0 .f32 0x3F800000#32))
    (addf (broadcastInDim SW1 ![] bcast_0_W1 (constant S0 .f32 0x3F800000#32)) (Host.exp (Host.negf z))))

/-- Two batched matrix products around silu, flattened to [32768, 512], each row then scaled by its weight. -/
def refWeighted (xg : FVec Ideal SX .f32) (W1 : FVec Ideal SW1 .f32) (W2 : FVec Ideal SW2 .f32) (ws : FVec Ideal SN .f32) :
    FVec Ideal SNH .f32 :=
  mulf (shapeCast SNH (Host.dotGeneral dotDown none (siluHost (Host.dotGeneral dotUp none xg W1)) W2) casts_X_NH)
    (broadcastInDim SNH ![0, 1] bcast_N1_NH (broadcastInDim SN1 ![0] bcast_N_N1 ws))

def refOut (hs : FVec Ideal SBH .f32) (ew : FVec Ideal SB2 .f32) (ids : IVec SB2 32) (W1 : FVec Ideal SW1 .f32)
    (W2 : FVec Ideal SW2 .f32) : FVec Ideal SBH .f32 :=
  combine ids (refWeighted (xGathered hs ids) W1 W2 (wSorted ew ids))

end Cert.MoE

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.LibRowGate.lean ====
/-
  A gate computed row by row. Two rows of 128 entries are laid side by side, sent through a dense layer of
  128 rectified units and then through one linear unit, and the result is squashed by the logistic function:
  a score in [0, 1] for the pair of rows. A message is a row times a matrix plus a bias row, scaled by such a
  score; a fusion is the convex mixture of two entries by a score, plus a third entry.
  Here these are functions of rows over the extended reals, and an [n, 256] array made of two [n, 128]
  arrays joined along the columns is read at an entry.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowGate

open Idealize.ShloMosaic Idealize.ShloMosaic.ValueIdx

/-- Two rows of 128 entries side by side: entry k of the first for k < 128, entry k - 128 of the second after. -/
def cat (a b : Fin 128 → EReal) (k : Fin 256) : EReal :=
  if h : k.val < 128 then a ⟨k.val, h⟩ else b ⟨k.val - 128, by have := k.isLt; omega⟩

/-- Rectified unit j of the dense layer on the joined rows: max (Σₖ cat a b k · W1 k j + b1 j) 0. -/
def hidden (a b : Fin 128 → EReal) (W1 : Fin 256 → Fin 128 → EReal) (b1 : Fin 128 → EReal) (j : Fin 128) : EReal :=
  max ((∑ k : Fin 256, cat a b k * W1 k j) + b1 j) 0

/-- The score of a pair of rows: the logistic function of Σⱼ hidden j · W2 j + b2. -/
def score (a b : Fin 128 → EReal) (W1 : Fin 256 → Fin 128 → EReal) (b1 : Fin 128 → EReal)
    (W2 : Fin 128 → EReal) (b2 : EReal) : EReal :=
  Ideal.logistic ((∑ j : Fin 128, hidden a b W1 b1 j * W2 j) + b2)

/-- Entry o of a message: (Σₖ a k · W k o + b o) · s. -/
def msg (a : Fin 128 → EReal) (W : Fin 128 → Fin 128 → EReal) (b : Fin 128 → EReal) (s : EReal) (o : Fin 128) : EReal :=
  ((∑ k : Fin 128, a k * W k o) + b o) * s

/-- The mixture g · u + (1 - g) · v, plus x; the one is kept as its single-precision pattern. -/
def fuse (g u v x : EReal) : EReal :=
  g * u + (Ideal.ofBits .f32 0x3F800000#32 - g) * v + x

/-- Two [n, 128] arrays joined along the columns, read at (p, k): the first at (p, k) for k < 128, the second at
    (p, k - 128) after. -/
theorem concat_apply {n : ℕ} {α : Type} (x₁ x₂ : (⟨2, ![n, 128]⟩ : Shape).Idx → α)
    (h : Shape.Concatenates [(⟨2, ![n, 128]⟩ : Shape), ⟨2, ![n, 128]⟩] ⟨2, ![n, 256]⟩ 1) (p : Fin n) (k : Fin 256) :
    concatenate ⟨2, ![n, 256]⟩ 1 [⟨⟨2, ![n, 128]⟩, x₁⟩, ⟨⟨2, ![n, 128]⟩, x₂⟩] h (ix2 p k)
      = if hk : k.val < 128 then x₁ (ix2 p ⟨k.val, hk⟩)
        else x₂ (ix2 p ⟨k.val - 128, by have := k.isLt; omega⟩) := by
  split
  · rename_i hk
    exact concatenate_pair_apply_left 1 x₁ x₂ h (ix2 p k) rfl (ix2 p ⟨k.val, hk⟩) (fun b => by
      match b with
      | ⟨0, _⟩ => rfl
      | ⟨1, _⟩ => rfl)
  · rename_i hk
    exact concatenate_pair_apply_right 1 x₁ x₂ h (ix2 p k) rfl rfl (ix2 p ⟨k.val - 128, by have := k.isLt; omega⟩)
      (fun b hb => by
        match b with
        | ⟨0, _⟩ => rfl
        | ⟨1, _⟩ => exact absurd rfl hb)
      (by show (k.val - 128) + 128 = k.val; omega)

/-- The joined rows of two arrays of extended reals at row p are `cat` of their rows. -/
theorem concat_row {n : ℕ} (x₁ x₂ : (⟨2, ![n, 128]⟩ : Shape).Idx → EReal)
    (h : Shape.Concatenates [(⟨2, ![n, 128]⟩ : Shape), ⟨2, ![n, 128]⟩] ⟨2, ![n, 256]⟩ 1) (p : Fin n) (k : Fin 256) :
    concatenate ⟨2, ![n, 256]⟩ 1 [⟨⟨2, ![n, 128]⟩, x₁⟩, ⟨⟨2, ![n, 128]⟩, x₂⟩] h (ix2 p k)
      = cat (fun k => x₁ (ix2 p k)) (fun k => x₂ (ix2 p k)) k :=
  concat_apply x₁ x₂ h p k

/-- One over one plus the exponential of the negative is the logistic function (the ones as single-precision patterns). -/
theorem div_one_add_exp_neg (z : EReal) :
    Ideal.div (Ideal.ofBits .f32 0x3F800000#32) (Ideal.ofBits .f32 0x3F800000#32 + Ideal.exp (-z)) = Ideal.logistic z := by
  have h1 : Ideal.ofBits .f32 0x3F800000#32 = 1 := by simp [Ideal.ofBits, Ideal.ieee, -EReal.coe_mul]; norm_num
  rw [h1]; rfl

end Cert.RowGate

end
-- ==== Proof.Weighted.lean ====
/-
  The two ways of computing the [32768, 512] array of weighted expert outputs agree entry by entry.

  Assignment n of the flattened array is row n % 512 of group n / 512. On the one side the two batched products are
  read at an entry as sums over the contracted coordinate, the gate between them is z · logistic z entry by entry, and
  the weight of assignment n multiplies row n afterwards; on the other side the same two sums are written out inside
  the group, with the weight read from the [64, 512, 1] arrangement of the same list. The two sides are the same
  sums in the same order.
-/
import proofs.«123885_j63668595196398_1_alg».proof.Proof.Spec
import proofs.«123885_j63668595196398_1_alg».proof.Proof.LibPlainProduct
import proofs.«123885_j63668595196398_1_alg».proof.Proof.LibRowGate
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.MoE

open Idealize.ShloMosaic Idealize.ShloMosaic.ValueIdx

/-! ## The two batched products at an entry -/

/-- Entry (e, c, f) of the first product: row c of group e against column f of expert e's first matrix. -/
theorem dotUp_apply (xg : FVec Ideal SX .f32) (W1 : FVec Ideal SW1 .f32) (e : Fin 64) (c : Fin 512) (f : Fin 1024) :
    Host.dotGeneral (F := Ideal) dotUp none xg W1 (ix3 e c f) = ∑ k : Fin 512, xg (ix3 e c k) * W1 (ix3 e k f) :=
  StackMember.dotGeneral_stack_apply dotUp.wf none xg W1 e c f

/-- Entry (e, c, h) of the second product: row c of group e's hidden array against column h of expert e's second matrix. -/
theorem dotDown_apply (z : FVec Ideal SW1 .f32) (W2 : FVec Ideal SW2 .f32) (e : Fin 64) (c : Fin 512) (h : Fin 512) :
    Host.dotGeneral (F := Ideal) dotDown none z W2 (ix3 e c h) = ∑ f : Fin 1024, z (ix3 e c f) * W2 (ix3 e f h) :=
  StackMember.dotGeneral_stack_apply dotDown.wf none z W2 e c h

/-! ## The gate at an entry -/

/-- z · (1 / (1 + exp (−z))) is z · logistic z, entry by entry. -/
theorem siluHost_apply (z : FVec Ideal SW1 .f32) (i : SW1.Idx) : siluHost z i = silu (z i) := by
  show z i * Ideal.div (Ideal.ofBits .f32 0x3F800000#32) (Ideal.ofBits .f32 0x3F800000#32 + Ideal.exp (-(z i))) = _
  rw [Cert.RowGate.div_one_add_exp_neg]
  rfl

/-! ## The flattening and the weights at an entry -/

/-- The group of assignment n. -/
def grp (n : Fin 32768) : Fin 64 := ⟨n.val / 512, by have := n.isLt; omega⟩

/-- The row of assignment n within its group. -/
def pos (n : Fin 32768) : Fin 512 := ⟨n.val % 512, by omega⟩

/-- Row n of the flattened array is row n % 512 of group n / 512: (n / 512) · 512 + n % 512 = n. -/
theorem flatten_apply {α : Type} (y : SX.Idx → α) (n : Fin 32768) (h : Fin 512) :
    shapeCast SNH y casts_X_NH (ix2 n h) = y (ix3 (grp n) (pos n) h) :=
  shapeCast_apply y casts_X_NH (ix2 n h) (ix3 (grp n) (pos n) h) (by
    rw [Shape.rowMajor_val_three, Shape.rowMajor_val_two]
    show (n.val / 512 * 512 + n.val % 512) * 512 + h.val = n.val * 512 + h.val
    have := Nat.div_add_mod n.val 512
    omega)

/-- The [64, 512, 1] arrangement of the weights at (n / 512, n % 512, 0) is weight n. -/
theorem weightCol_apply {α : Type} (ws : SN.Idx → α) (n : Fin 32768) :
    shapeCast SG1 ws casts_N_G1 (ix3 (grp n) (pos n) (0 : Fin 1)) = ws (ix1 n) :=
  shapeCast_apply ws casts_N_G1 (ix3 (grp n) (pos n) (0 : Fin 1)) (ix1 n) (by
    rw [Shape.rowMajor_val_one, Shape.rowMajor_val_three]
    show n.val = (n.val / 512 * 512 + n.val % 512) * 1 + 0
    have := Nat.div_add_mod n.val 512
    omega)

/-- The weights spread along the rows of the [32768, 512] array: entry (n, h) is weight n. -/
theorem weightRows_apply {α : Type} (ws : SN.Idx → α) (n : Fin 32768) (h : Fin 512) :
    broadcastInDim SNH ![0, 1] bcast_N1_NH (broadcastInDim SN1 ![0] bcast_N_N1 ws) (ix2 n h) = ws (ix1 n) := by
  refine (broadcastInDim_apply ![0, 1] bcast_N1_NH _ (ix2 n h) (ix2 n (0 : Fin 1)) (fun a => ?_)).trans ?_
  · match a with
    | ⟨0, _⟩ => rfl
    | ⟨1, _⟩ => rfl
  · exact broadcastInDim_apply ![0] bcast_N_N1 ws (ix2 n (0 : Fin 1)) (ix1 n) (fun a => by
      match a with
      | ⟨0, _⟩ => rfl)

/-! ## The two arrays agree -/

theorem refWeighted_eq (xg : FVec Ideal SX .f32) (W1 : FVec Ideal SW1 .f32) (W2 : FVec Ideal SW2 .f32) (ws : FVec Ideal SN .f32) :
    refWeighted xg W1 W2 ws = shapeCast SNH (grouped xg W1 W2 (shapeCast SG1 ws casts_N_G1)) casts_X_NH := by
  funext i
  obtain ⟨n, h, rfl⟩ : ∃ (n : Fin 32768) (h : Fin 512), i = ix2 n h := ⟨i 0, i 1, eq_ix2 i⟩
  rw [flatten_apply]
  show shapeCast SNH (Host.dotGeneral dotDown none (siluHost (Host.dotGeneral dotUp none xg W1)) W2) casts_X_NH (ix2 n h)
      * broadcastInDim SNH ![0, 1] bcast_N1_NH (broadcastInDim SN1 ![0] bcast_N_N1 ws) (ix2 n h)
    = (∑ f : Fin 1024, silu (∑ k : Fin 512, xg (ix3 (grp n) (pos n) k) * W1 (ix3 (grp n) k f)) * W2 (ix3 (grp n) f h))
      * shapeCast SG1 ws casts_N_G1 (ix3 (grp n) (pos n) (0 : Fin 1))
  rw [flatten_apply, weightRows_apply, weightCol_apply, dotDown_apply]
  refine congrArg (· * ws (ix1 n)) (Finset.sum_congr rfl fun f _ => ?_)
  rw [siluHost_apply, dotUp_apply]

theorem kerOut_eq_refOut (hs : FVec Ideal SBH .f32) (ew : FVec Ideal SB2 .f32) (ids : IVec SB2 32) (W1 : FVec Ideal SW1 .f32)
    (W2 : FVec Ideal SW2 .f32) : kerOut hs ew ids W1 W2 = refOut hs ew ids W1 W2 := by
  unfold kerOut refOut
  rw [refWeighted_eq]

end Cert.MoE

end
-- ==== Proof.KerValue.lean ====
/-
  What the grouped kernel leaves in its output array.

  One point of the call handles one expert: it reads the expert's 512 rows, its two matrices and the rows' weights, and
  writes, for row p and feature q, (Σ_f silu (Σ_k x_{p k} · W1_{k f}) · W2_{f q}) · w_p. The 64 points' blocks are the 64
  slabs of the output array, so the array ends holding the grouped layer's result entry by entry.
-/
import proofs.«123885_j63668595196398_1_alg».proof.Proof.Gen.KernelIdeal.Frame
import proofs.«123885_j63668595196398_1_alg».proof.Proof.Spec
import proofs.«123885_j63668595196398_1_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The body's arithmetic at an entry

The body sees one expert's block of each array with a leading axis of extent one: the row block [1, 512, 512], the two
matrices [1, 512, 1024] and [1, 1024, 512], the weight column [1, 512, 1]. It drops that axis, multiplies, applies
z · logistic z, multiplies again, scales each row by its weight and puts the axis back. -/

/-- Entry (p, k) of a block with its unit axis dropped is entry (0, p, k) of the block. -/
theorem dropUnit_at {α : Type} {a b : Nat} (v : (⟨3, ![1, a, b]⟩ : Shape).Idx → α)
    (h : (⟨3, ![1, a, b]⟩ : Shape).ShapeCasts ⟨2, ![a, b]⟩) (p : Fin a) (k : Fin b) :
    shapeCast ⟨2, ![a, b]⟩ v h (ix2 p k) = v (ix3 0 p k) :=
  (shapeCast_dropUnit_apply ![a, b] v h (ix2 p k)).trans
    (congrArg v (funext fun d => match d with | ⟨0, _⟩ => rfl | ⟨1, _⟩ => rfl | ⟨2, _⟩ => rfl))

/-- Entry (0, p, q) of a matrix given a leading unit axis is entry (p, q) of the matrix. -/
theorem addUnit_at {α : Type} {a b : Nat} (v : (⟨2, ![a, b]⟩ : Shape).Idx → α)
    (h : (⟨2, ![a, b]⟩ : Shape).ShapeCasts ⟨3, ![1, a, b]⟩) (p : Fin a) (q : Fin b) :
    shapeCast ⟨3, ![1, a, b]⟩ v h (ix3 0 p q) = v (ix2 p q) :=
  (shapeCast_addUnit_apply ![a, b] v h (ix3 0 p q)).trans
    (congrArg v (funext fun d => match d with | ⟨0, _⟩ => rfl | ⟨1, _⟩ => rfl))

/-- The weight column spread along the rows: entry (p, q) is the column's entry (p, 0). -/
theorem column_at {α : Type} (v : S512x1.Idx → α) (h : S512x1.Broadcasts S512x512) (p q : Fin 512) :
    broadcastTo S512x512 v h (ix2 p q) = v (ix2 p 0) :=
  broadcastTo_apply v h (ix2 p q) (ix2 p 0) (fun d => match d with | ⟨0, _⟩ => rfl | ⟨1, _⟩ => rfl)

/-- The first product, at (p, f): row p of the block against column f of the first matrix. -/
theorem up_at (x0 : Vec Ideal S1x512x512 .bf16) (x1 : Vec Ideal S1x512x1024 .f32) (p : Fin 512) (f : Fin 1024) :
    matmul (F := Ideal) dot_S512x512_S512x1024_S512x1024_1_0_0_1_n_n none
        (shapeCast S512x512 x0 shapeCasts_S1x512x512_S512x512 : FVec Ideal S512x512 .bf16)
        (truncf .bf16 (shapeCast S512x1024 x1 shapeCasts_S1x512x1024_S512x1024 : FVec Ideal S512x1024 .f32) bitsLt_bf16_f32 :
          FVec Ideal S512x1024 .bf16)
        (constant (F := Ideal) S512x1024 .f32 0x00000000#32) (ix2 p f)
      = ∑ k : Fin 512, x0 (ix3 0 p k) * x1 (ix3 0 k f) := by
  refine (Cert.PlainProduct.matmul_zero_apply (M := 512) (K := 512) (N := 1024) none _ _ p f).trans ?_
  refine Finset.sum_congr rfl fun k _ => ?_
  exact congrArg₂ (· * ·) (dropUnit_at x0 shapeCasts_S1x512x512_S512x512 p k)
    (dropUnit_at x1 shapeCasts_S1x512x1024_S512x1024 k f)

/-- The body at an entry: entry (0, p, q) of what the body stores is row p of the block through the expert's two
    matrices, scaled by the row's weight, read at q. -/
theorem pay_at (x0 : Vec Ideal S1x512x512 .bf16) (x1 : Vec Ideal S1x512x1024 .f32) (x2 : Vec Ideal S1x1024x512 .f32)
    (x3 : Vec Ideal S1x512x1 .f32) (p q : Fin 512) :
    k0_pay1 x0 x1 x2 x3 (ix3 0 p q)
      = Cert.MoE.ffnRow (fun k => x0 (ix3 0 p k)) (fun k f => x1 (ix3 0 k f)) (fun f h => x2 (ix3 0 f h)) (x3 (ix3 0 p 0)) q := by
  unfold k0_pay1
  refine (addUnit_at _ shapeCasts_S512x512_S1x512x512 p q).trans ?_
  refine (mulf_apply _ _ (ix2 p q)).trans ?_
  unfold Cert.MoE.ffnRow
  refine congrArg₂ (· * ·) ?_ ?_
  · refine (Cert.PlainProduct.matmul_zero_apply (M := 512) (K := 1024) (N := 512) none _ _ p q).trans ?_
    refine Finset.sum_congr rfl fun f _ => ?_
    refine congrArg₂ (· * ·) ?_ (dropUnit_at x2 shapeCasts_S1x1024x512_S1024x512 f q)
    exact congrArg Cert.MoE.silu (up_at x0 x1 p f)
  · exact (column_at _ broadcasts_S512x1_S512x512 p q).trans (dropUnit_at x3 shapeCasts_S1x512x1_S512x1 p 0)

/-- The grouped layer at (e, p, q): row p of group e through expert e, scaled by the group's p-th weight, read at q. -/
theorem grouped_at (xg : FVec Ideal Cert.MoE.SX .f32) (W1 : FVec Ideal Cert.MoE.SW1 .f32) (W2 : FVec Ideal Cert.MoE.SW2 .f32)
    (w : FVec Ideal Cert.MoE.SG1 .f32) (e : Fin 64) (p q : Fin 512) :
    Cert.MoE.grouped xg W1 W2 w (ix3 e p q)
      = Cert.MoE.ffnRow (fun k => xg (ix3 e p k)) (fun k f => W1 (ix3 e k f)) (fun f h => W2 (ix3 e f h)) (w (ix3 e p 0)) q := rfl

/-- A row through an expert depends only on the entries it reads. -/
theorem ffnRow_congr {x x' : Fin 512 → EReal} {W1 W1' : Fin 512 → Fin 1024 → EReal} {W2 W2' : Fin 1024 → Fin 512 → EReal}
    {w w' : EReal} (hx : ∀ k, x k = x' k) (h1 : ∀ k f, W1 k f = W1' k f) (h2 : ∀ f h, W2 f h = W2' f h) (hw : w = w')
    (q : Fin 512) : Cert.MoE.ffnRow x W1 W2 w q = Cert.MoE.ffnRow x' W1' W2' w' q := by
  obtain rfl : x = x' := funext hx
  obtain rfl : W1 = W1' := funext fun k => funext (h1 k)
  obtain rfl : W2 = W2' := funext fun f => funext (h2 f)
  rw [hw]

/-! ## From blocks to the array

The call has 64 points; at point t every window's block is expert t's slab of its array: index (t, 0, 0) on blocks
[1, 512, 512], [1, 512, 1024], [1, 1024, 512], [1, 512, 1] of arrays of 64 such slabs. So entry (0, p, q) of a block is
entry (t, p, q) of its array, and what point t writes back is slab t of the grouped layer's result. -/

theorem offset_zero : (![0, 0, 0] : Fin 3 → Nat) = fun _ => 0 := funext fun a => by fin_cases a <;> rfl

/-- At each of the 64 points t, every window's block index is (t, 0, 0). -/
theorem slab_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- An index of a [1, 512, 512] block from its two free coordinates. -/
theorem eq_slab_ix (j : S1x512x512.Idx) : j = ix3 0 (j 1) (j 2) :=
  funext fun a => match a with
    | ⟨0, _⟩ => Fin.ext (Nat.lt_one_iff.mp (j 0).isLt)
    | ⟨1, _⟩ => rfl
    | ⟨2, _⟩ => rfl

/-- Entry (0, p, k) of the row block at point t is entry (t, p, k) of the grouped rows. -/
theorem rows_at (c : Dev nD) (t : Fin cfg0.N) (e : Fin 64) (he : e.val = t.val) (p k : Fin 512) :
    (iblk m c 0 t : Vec Ideal S1x512x512 .bf16) (ix3 0 p k)
      = (V m c main_v27 : FVec Ideal Cert.MoE.SX .f32) (ix3 e p k) := by
  obtain ⟨⟨h0, h1, h2⟩, -⟩ := slab_index t
  unfold iblk
  rw [View.read_apply]
  show V m c main_v27 _ = V m c main_v27 _
  congr 1
  funext a
  apply Fin.ext
  match a with
  | ⟨0, _⟩ => show win0_0.index t (0 : Fin 3) * 1 + 1 * 0 = e.val; omega
  | ⟨1, _⟩ => show win0_0.index t (1 : Fin 3) * 512 + 1 * p.val = p.val; omega
  | ⟨2, _⟩ => show win0_0.index t (2 : Fin 3) * 512 + 1 * k.val = k.val; omega

/-- Entry (0, k, f) of the first matrix's block at point t is entry (t, k, f) of the experts' first matrices. -/
theorem up_weights_at (c : Dev nD) (t : Fin cfg0.N) (e : Fin 64) (he : e.val = t.val) (k : Fin 512) (f : Fin 1024) :
    (iblk m c 1 t : Vec Ideal S1x512x1024 .f32) (ix3 0 k f)
      = (V m c main_arg3 : FVec Ideal Cert.MoE.SW1 .f32) (ix3 e k f) := by
  obtain ⟨-, ⟨h0, h1, h2⟩, -⟩ := slab_index t
  unfold iblk
  rw [View.read_apply]
  show V m c main_arg3 _ = V m c main_arg3 _
  congr 1
  funext a
  apply Fin.ext
  match a with
  | ⟨0, _⟩ => show win0_1.index t (0 : Fin 3) * 1 + 1 * 0 = e.val; omega
  | ⟨1, _⟩ => show win0_1.index t (1 : Fin 3) * 512 + 1 * k.val = k.val; omega
  | ⟨2, _⟩ => show win0_1.index t (2 : Fin 3) * 1024 + 1 * f.val = f.val; omega

/-- Entry (0, f, h) of the second matrix's block at point t is entry (t, f, h) of the experts' second matrices. -/
theorem down_weights_at (c : Dev nD) (t : Fin cfg0.N) (e : Fin 64) (he : e.val = t.val) (f : Fin 1024) (h : Fin 512) :
    (iblk m c 2 t : Vec Ideal S1x1024x512 .f32) (ix3 0 f h)
      = (V m c main_arg4 : FVec Ideal Cert.MoE.SW2 .f32) (ix3 e f h) := by
  obtain ⟨-, -, ⟨h0, h1, h2⟩, -⟩ := slab_index t
  unfold iblk
  rw [View.read_apply]
  show V m c main_arg4 _ = V m c main_arg4 _
  congr 1
  funext a
  apply Fin.ext
  match a with
  | ⟨0, _⟩ => show win0_2.index t (0 : Fin 3) * 1 + 1 * 0 = e.val; omega
  | ⟨1, _⟩ => show win0_2.index t (1 : Fin 3) * 1024 + 1 * f.val = f.val; omega
  | ⟨2, _⟩ => show win0_2.index t (2 : Fin 3) * 512 + 1 * h.val = h.val; omega

/-- Entry (0, p, 0) of the weight column's block at point t is entry (t, p, 0) of the routing weights. -/
theorem gate_at (c : Dev nD) (t : Fin cfg0.N) (e : Fin 64) (he : e.val = t.val) (p : Fin 512) :
    (iblk m c 3 t : Vec Ideal S1x512x1 .f32) (ix3 0 p 0)
      = (V m c main_v28 : FVec Ideal Cert.MoE.SG1 .f32) (ix3 e p 0) := by
  obtain ⟨-, -, -, ⟨h0, h1, h2⟩, -⟩ := slab_index t
  unfold iblk
  rw [View.read_apply]
  show V m c main_v28 _ = V m c main_v28 _
  congr 1
  funext a
  apply Fin.ext
  match a with
  | ⟨0, _⟩ => show win0_3.index t (0 : Fin 3) * 1 + 1 * 0 = e.val; omega
  | ⟨1, _⟩ => show win0_3.index t (1 : Fin 3) * 512 + 1 * p.val = p.val; omega
  | ⟨2, _⟩ => show win0_3.index t (2 : Fin 3) * 1 + 1 * 0 = 0; omega

/-- Entry (0, p, q) of the output's block at point t sits at (t, p, q) of the output array. -/
theorem out_at (t : Fin cfg0.N) (e : Fin 64) (he : e.val = t.val) (p q : Fin 512) :
    (((cfg0.win 4).blk t).view.emb (ix3 0 p q : S1x512x512.Idx) : Cert.MoE.SX.Idx) = ix3 e p q := by
  obtain ⟨-, -, -, -, ⟨h0, h1, h2⟩⟩ := slab_index t
  funext a
  apply Fin.ext
  match a with
  | ⟨0, _⟩ => show win0_4.index t (0 : Fin 3) * 1 + 1 * 0 = e.val; omega
  | ⟨1, _⟩ => show win0_4.index t (1 : Fin 3) * 512 + 1 * p.val = p.val; omega
  | ⟨2, _⟩ => show win0_4.index t (2 : Fin 3) * 512 + 1 * q.val = q.val; omega

/-- Point t writes back slab t of the grouped layer's result, computed on the arrays as the call finds them. -/
theorem flushed_eq (c : Dev nD) (t : Fin cfg0.N) :
    (dats (F := Ideal) m 0 c).flushed 4 t
      = ((cfg0.win 4).blk t).view.read (Elt Ideal)
          (Cert.MoE.grouped (V m c main_v27) (V m c main_arg3) (V m c main_arg4) (V m c main_v28)) := by
  show (cfg0.win 4).cut (grid0.coords t) ((dats m 0 c).after 4 t) = _
  rw [after0_4]
  unfold out0_4
  rw [View.canon_unit_zero offset_zero]
  simp only [View.ld_unit_zero (S := S1x512x512) offset_zero, View.ld_unit_zero (S := S1x512x1024) offset_zero,
    View.ld_unit_zero (S := S1x1024x512) offset_zero, View.ld_unit_zero (S := S1x512x1) offset_zero]
  refine funext fun (j : S1x512x512.Idx) => ?_
  have ht : t.val < 64 := t.isLt
  rw [eq_slab_ix j]
  show k0_pay1 (iblk m c 0 t) (iblk m c 1 t) (iblk m c 2 t) (iblk m c 3 t) (ix3 0 (j 1) (j 2))
    = Cert.MoE.grouped (V m c main_v27) (V m c main_arg3) (V m c main_arg4) (V m c main_v28)
        (((cfg0.win 4).blk t).view.emb (ix3 0 (j 1) (j 2) : S1x512x512.Idx))
  rw [out_at t ⟨t.val, ht⟩ rfl (j 1) (j 2)]
  refine (pay_at (iblk m c 0 t) (iblk m c 1 t) (iblk m c 2 t) (iblk m c 3 t) (j 1) (j 2)).trans ?_
  refine Eq.trans ?_ (grouped_at (V m c main_v27) (V m c main_arg3) (V m c main_arg4) (V m c main_v28) ⟨t.val, ht⟩ (j 1) (j 2)).symm
  exact ffnRow_congr (fun k => rows_at m c t ⟨t.val, ht⟩ rfl (j 1) k) (fun k f => up_weights_at m c t ⟨t.val, ht⟩ rfl k f)
    (fun f h => down_weights_at m c t ⟨t.val, ht⟩ rfl f h) (gate_at m c t ⟨t.val, ht⟩ rfl (j 1)) (j 2)

/-- Membership in point t's block of the output array, axis by axis: a coordinate lies from the block's start on that
    axis up to, and not including, that start plus the block's extent. -/
theorem mem_slab (t : Fin cfg0.N) (i : Cert.MoE.SX.Idx) :
    i ∈ ((cfg0.win 4).blk t).view.set ↔ ∀ a : Fin 3, win0_4.index t a * S1x512x512.size a ≤ (i a).val
      ∧ (i a).val < win0_4.index t a * S1x512x512.size a + S1x512x512.size a := by
  show i ∈ ((View.whole main_v29).slice (win0_4.rect t)).set ↔ _
  rw [View.set_slice_whole, Rect.mem_set_unit]
  exact Iff.rfl

/-- Every entry (e, p, q) of the output array lies in the block of point e, which is written back. -/
theorem covered (i : Cert.MoE.SX.Idx) :
    ∃ t : Fin cfg0.N, (cfg0.win 4).flush t = true ∧ i ∈ ((cfg0.win 4).blk t).view.set := by
  have hi0 : (i 0).val < 64 := (i 0).isLt
  have hi1 : (i 1).val < 512 := (i 1).isLt
  have hi2 : (i 2).val < 512 := (i 2).isLt
  obtain ⟨t, ht⟩ : ∃ t : Fin cfg0.N, t.val = (i 0).val := ⟨⟨(i 0).val, hi0⟩, rfl⟩
  obtain ⟨-, -, -, -, ⟨h0, h1, h2⟩⟩ := slab_index t
  refine ⟨t, flush0_4 t, ?_⟩
  rw [mem_slab]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 512 ≤ (i 2).val ∧ (i 2).val < win0_4.index t (2 : Fin 3) * 512 + 512; omega

/-- After the 64 points the output array is the grouped layer's result on the arrays as the call finds them. -/
theorem final (c : Dev nD) :
    (dats (F := Ideal) m 0 c).arrAt 4 cfg0.N
      = Cert.MoE.grouped (V m c main_v27) (V m c main_arg3) (V m c main_arg4) (V m c main_v28) :=
  (dats (F := Ideal) m 0 c).arrAt_eq_of_cover 4 _ (fun t _ => flushed_eq m c t) covered

end Cert.KernelIdeal.Val

end
-- ==== Proof.KerRun.lean ====
/-
  The kernel's program, run: its result is the spec's `kerOut` of the argument arrays.

  Before the grouped call the program computes, by the shared bookkeeping, the sorted token list, the gathered rows
  (from the activations converted to a narrower format, which changes no value over the extended reals) and the
  sorted weights as a column per group; the call fills the grouped output; after it the output is flattened and
  added into the tokens' rows.
-/
import proofs.«123885_j63668595196398_1_alg».proof.Proof.KerValue
import Idealize.ShloMosaic.Lib.StableHlo.Run

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-! ## What the grouped call finds -/

attribute [local irreducible] Host.sort2 Host.gather in
/-- The sorted assignments' tokens. -/
theorem entry_tok (c : Dev nD) : V m c main_v11 = Cert.MoE.tokSorted (m ((c.tc : Thread nD τ).loc main_arg2)) := by
  dsimp only [Gen.V, Gen.V0]
  simp only [hostOps0, hostOps0_1, hostOps0_2, hostOps0_3, List.flatten_cons, List.flatten_nil, List.append_nil, List.cons_append, List.nil_append]
  after_results_simp
  rfl

attribute [local irreducible] Host.sort2 Host.gather in
/-- The tokens' rows in sorted order, grouped; the conversion to the narrower format is the identity here. -/
theorem entry_rows (c : Dev nD) :
    V m c main_v27 = Cert.MoE.xGathered (m ((c.tc : Thread nD τ).loc main_arg0)) (m ((c.tc : Thread nD τ).loc main_arg2)) := by
  dsimp only [Gen.V, Gen.V0]
  simp only [hostOps0, hostOps0_1, hostOps0_2, hostOps0_3, List.flatten_cons, List.flatten_nil, List.append_nil, List.cons_append, List.nil_append]
  after_results_simp
  rfl

attribute [local irreducible] Host.sort2 Host.gather in
/-- The sorted weights, one column of 512 per group. -/
theorem entry_weights (c : Dev nD) :
    V m c main_v28 = shapeCast Cert.MoE.SG1
      (Cert.MoE.wSorted (m ((c.tc : Thread nD τ).loc main_arg1)) (m ((c.tc : Thread nD τ).loc main_arg2))) Cert.MoE.casts_N_G1 := by
  dsimp only [Gen.V, Gen.V0]
  simp only [hostOps0, hostOps0_1, hostOps0_2, hostOps0_3, List.flatten_cons, List.flatten_nil, List.append_nil, List.cons_append, List.nil_append]
  after_results_simp
  rfl

/-! ## The result -/

/-- After the call: the grouped output flattened and added into the tokens' rows. -/
theorem result_eq (c : Dev nD) :
    Pipeline.afterTail₀ cfgs (dats (F := Ideal) m) 0 (V0 m) [hostOps1] c main_v38
      = Cert.MoE.kerOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Pipeline.afterTail₀
  show StableHlo.after hostOps1 (Pipeline.withArrays (cfgs 0).spec c (V0 m c) fun w => (dats (F := Ideal) m 0 c).arrAt w (cfgs 0).N)
      (Proc.devRef .tc main_v38) = _
  generalize hW : Pipeline.withArrays (cfgs 0).spec c (V0 m c) (fun w => (dats (F := Ideal) m 0 c).arrAt w (cfgs 0).N) = W
  after_results_simp
  have hout : W (Proc.devRef .tc main_v29) = (dats (F := Ideal) m 0 c).arrAt 4 cfg0.N := by
    rw [← hW]; exact Pipeline.withArrays_arr spec0 launch0.win.arr_inj c _ _ 4
  have htok : W (Proc.devRef .tc main_v11) = V m c main_v11 := by
    rw [← hW]; exact Pipeline.withArrays_of_ne spec0 c (V0 m c) _ main_v11 (by exact (by decide : ∀ w, Pipeline.arrRef spec0 w ≠ main_v11))
  rw [hout, htok, final, entry_tok, entry_rows, entry_weights, V_main_arg3, V_main_arg4]
  rfl

/-! ## The run -/

/-- Every weakly fair execution of the kernel's program ends with the result at `kerOut` of the arguments, which are
    unchanged: the frame run, with the result buffer read through the operations after the call. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v38)
          = Cert.MoE.kerOut (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v38 (Pipeline.mem_restRefs_of main_v38 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).1 1).trans (((dats m 0 c).arrAt_in 1 rfl _).trans ((A_eq m c 1).trans (V_main_arg3 m c))),
        ((h c).1 2).trans (((dats m 0 c).arrAt_in 2 rfl _).trans ((A_eq m c 2).trans (V_main_arg4 m c)))⟩)
    (run_main m ρ)

end Cert.KernelIdeal.Val

end
-- ==== Proof.RefRun.lean ====
/-
  The reference program, run: its result is the spec's `refOut` of the argument arrays.

  The program is a straight line of array operations once each called function is read as its own operations at the
  call site. Run in order from any contents, every buffer ends at the composition of the operations that feed it, and
  the five argument arrays, which no operation writes, keep their contents. The composition at the result buffer is
  the spec's `refOut`, definition for definition: the token of each assignment, the stable sort by expert id, the
  three gathers along the sorted order, two batched products around silu, the weight applied after flattening, and the
  scatter-add into a zero array.
-/
import proofs.«123885_j63668595196398_1_alg».proof.Proof.Gen.ReferenceIdeal
import proofs.«123885_j63668595196398_1_alg».proof.Proof.Spec
import Idealize.ShloMosaic.Lib.StableHlo.Run
import Idealize.ShloMosaic.Lib.Pipeline.Regions

noncomputable section

namespace Cert.ReferenceIdeal.Run

open Cert.ReferenceIdeal Cert.ReferenceIdeal.Gen Idealize.ShloMosaic Idealize.ShloMosaic.TcCoe Idealize.SL.Sem Idealize.ShloMosaic.StableHlo

section Line

variable {F : FTy → Type} [FloatOps F]

/-- The program's 78 operations in order, each called function's operations standing where it is called, over that
    call's own buffers: the two reshapes, the iota and the constant 2; the floored quotient by 2 (seventeen, the last
    the select of the function it calls); the stable sort (three); the wrapped indices and the three gathers, the first
    batched product (twenty-nine); silu (nine); the second product, the weighting and the scatter-add (sixteen). -/
abbrev ops : List (HloOp τ sig (Elt F)) :=
  [ reshape main_arg2 main_v0 rfl shapeCasts_S16384x2_S32768,
    reshape main_arg1 main_v1 rfl shapeCasts_S16384x2_S32768,
    nullary main_v2 (iotaInDim S32768 32 0),
    nullary main_c (constantI S_ 32 2#32),
    TRef.unary (.of main_c : TRef sig ⟨S_, .i32⟩) main_call0.v0 id,
    TRef.unary main_call0.v0 main_call0.v1 (broadcastInDim S32768 ![] bcast_S_S32768),
    TRef.binary (.of main_v2 : TRef sig ⟨S32768, .i32⟩) main_call0.v1 main_call0.v2 Host.divsi,
    TRef.unary (.of main_v2 : TRef sig ⟨S32768, .i32⟩) main_call0.v3 signi,
    TRef.unary main_call0.v0 main_call0.v4 signi,
    TRef.unary main_call0.v4 main_call0.v5 (broadcastInDim S32768 ![] bcast_S_S32768),
    TRef.binary main_call0.v3 main_call0.v5 main_call0.v6 (cmpi .ne),
    TRef.unary main_call0.v0 main_call0.v7 (broadcastInDim S32768 ![] bcast_S_S32768),
    TRef.binary (.of main_v2 : TRef sig ⟨S32768, .i32⟩) main_call0.v7 main_call0.v8 Host.remsi,
    TRef.nullary main_call0.c (constantI S_ 32 0#32),
    TRef.unary main_call0.c main_call0.v9 (broadcastInDim S32768 ![] bcast_S_S32768),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S32768 ![] bcast_S_S32768),
    TRef.binary main_call0.v2 main_call0.v12 main_call0.v13 subi,
    TRef.ternary main_call0.v11 main_call0.v13 main_call0.v2 main_call0.call0.v0 select,
    TRef.nullary main_call1.v0 (iotaInDim S32768 32 0),
    TRef.binary (.of main_v0 : TRef sig ⟨S32768, .i32⟩) main_call1.v0 main_call1.v1_0 (fun x y => (Host.sort2 S32768 0 comparator_i32_i32_d0 x y).1),
    TRef.binary (.of main_v0 : TRef sig ⟨S32768, .i32⟩) main_call1.v0 main_call1.v1_1 (fun x y => (Host.sort2 S32768 0 comparator_i32_i32_d0 x y).2),
    nullary main_c_0 (constantI S_ 32 0#32),
    unary main_c_0 main_v5 (broadcastInDim S32768 ![] bcast_S_S32768 : (⟨S_, .i32⟩ : BufTy).Contents (Elt F) → (⟨S32768, .i32⟩ : BufTy).Contents (Elt F)),
    binary main_v4 main_v5 main_v6 (cmpi .slt : (⟨S32768, .i32⟩ : BufTy).Contents (Elt F) → (⟨S32768, .i32⟩ : BufTy).Contents (Elt F) → (⟨S32768, .i1⟩ : BufTy).Contents (Elt F)),
    nullary main_c_1 (constantI S_ 32 32768#32),
    unary main_c_1 main_v7 (broadcastInDim S32768 ![] bcast_S_S32768 : (⟨S_, .i32⟩ : BufTy).Contents (Elt F) → (⟨S32768, .i32⟩ : BufTy).Contents (Elt F)),
    binary main_v4 main_v7 main_v8 (addi : (⟨S32768, .i32⟩ : BufTy).Contents (Elt F) → (⟨S32768, .i32⟩ : BufTy).Contents (Elt F) → (⟨S32768, .i32⟩ : BufTy).Contents (Elt F)),
    ternary main_v6 main_v8 main_v4 main_v9 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v9 main_v10 (broadcastInDim S32768x1 ![0] bcast_S32768_S32768x1_0 : (⟨S32768, .i32⟩ : BufTy).Contents (Elt F) → (⟨S32768x1, .i32⟩ : BufTy).Contents (Elt F)),
    binary main_v3 main_v10 main_v11 ((fun x i => Host.gather gather_S32768_S32768x1_S32768_n_0_n_n_0_1_1 x i) : (⟨S32768, .i32⟩ : BufTy).Contents (Elt F) → (⟨S32768x1, .i32⟩ : BufTy).Contents (Elt F) → (⟨S32768, .i32⟩ : BufTy).Contents (Elt F)),
    nullary main_c_2 (constantI S_ 32 0#32),
    unary main_c_2 main_v12 (broadcastInDim S32768 ![] bcast_S_S32768 : (⟨S_, .i32⟩ : BufTy).Contents (Elt F) → (⟨S32768, .i32⟩ : BufTy).Contents (Elt F)),
    binary main_v4 main_v12 main_v13 (cmpi .slt : (⟨S32768, .i32⟩ : BufTy).Contents (Elt F) → (⟨S32768, .i32⟩ : BufTy).Contents (Elt F) → (⟨S32768, .i1⟩ : BufTy).Contents (Elt F)),
    nullary main_c_3 (constantI S_ 32 32768#32),
    unary main_c_3 main_v14 (broadcastInDim S32768 ![] bcast_S_S32768 : (⟨S_, .i32⟩ : BufTy).Contents (Elt F) → (⟨S32768, .i32⟩ : BufTy).Contents (Elt F)),
    binary main_v4 main_v14 main_v15 (addi : (⟨S32768, .i32⟩ : BufTy).Contents (Elt F) → (⟨S32768, .i32⟩ : BufTy).Contents (Elt F) → (⟨S32768, .i32⟩ : BufTy).Contents (Elt F)),
    ternary main_v13 main_v15 main_v4 main_v16 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v16 main_v17 (broadcastInDim S32768x1 ![0] bcast_S32768_S32768x1_0 : (⟨S32768, .i32⟩ : BufTy).Contents (Elt F) → (⟨S32768x1, .i32⟩ : BufTy).Contents (Elt F)),
    binary main_v1 main_v17 main_v18 ((fun x i => Host.gather gather_S32768_S32768x1_S32768_n_0_n_n_0_1_1 x i) : (⟨S32768, .f32⟩ : BufTy).Contents (Elt F) → (⟨S32768x1, .i32⟩ : BufTy).Contents (Elt F) → (⟨S32768, .f32⟩ : BufTy).Contents (Elt F)),
    nullary main_c_4 (constantI S_ 32 0#32),
    unary main_c_4 main_v19 (broadcastInDim S32768 ![] bcast_S_S32768 : (⟨S_, .i32⟩ : BufTy).Contents (Elt F) → (⟨S32768, .i32⟩ : BufTy).Contents (Elt F)),
    binary main_v11 main_v19 main_v20 (cmpi .slt : (⟨S32768, .i32⟩ : BufTy).Contents (Elt F) → (⟨S32768, .i32⟩ : BufTy).Contents (Elt F) → (⟨S32768, .i1⟩ : BufTy).Contents (Elt F)),
    nullary main_c_5 (constantI S_ 32 16384#32),
    unary main_c_5 main_v21 (broadcastInDim S32768 ![] bcast_S_S32768 : (⟨S_, .i32⟩ : BufTy).Contents (Elt F) → (⟨S32768, .i32⟩ : BufTy).Contents (Elt F)),
    binary main_v11 main_v21 main_v22 (addi : (⟨S32768, .i32⟩ : BufTy).Contents (Elt F) → (⟨S32768, .i32⟩ : BufTy).Contents (Elt F) → (⟨S32768, .i32⟩ : BufTy).Contents (Elt F)),
    ternary main_v20 main_v22 main_v11 main_v23 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v23 main_v24 (broadcastInDim S32768x1 ![0] bcast_S32768_S32768x1_0 : (⟨S32768, .i32⟩ : BufTy).Contents (Elt F) → (⟨S32768x1, .i32⟩ : BufTy).Contents (Elt F)),
    binary main_arg0 main_v24 main_v25 ((fun x i => Host.gather gather_S16384x512_S32768x1_S32768x512_1_0_n_n_0_1_1512 x i) : (⟨S16384x512, .f32⟩ : BufTy).Contents (Elt F) → (⟨S32768x1, .i32⟩ : BufTy).Contents (Elt F) → (⟨S32768x512, .f32⟩ : BufTy).Contents (Elt F)),
    reshape main_v25 main_v26 rfl shapeCasts_S32768x512_S64x512x512,
    binary main_v26 main_arg3 main_v27 ((fun l r => Host.dotGeneral dot_S64x512x512_S64x512x1024_S64x512x1024_2_1_1_2_0_0 none l r) : (⟨S64x512x512, .f32⟩ : BufTy).Contents (Elt F) → (⟨S64x512x1024, .f32⟩ : BufTy).Contents (Elt F) → (⟨S64x512x1024, .f32⟩ : BufTy).Contents (Elt F)),
    TRef.unary (.of main_v27 : TRef sig ⟨S64x512x1024, .f32⟩) main_call2.v0 Host.negf,
    TRef.unary main_call2.v0 main_call2.v1 Host.exp,
    TRef.nullary main_call2.cst (constant S_ .f32 0x3F800000#32),
    TRef.unary main_call2.cst main_call2.v2 (broadcastInDim S64x512x1024 ![] bcast_S_S64x512x1024),
    TRef.binary main_call2.v2 main_call2.v1 main_call2.v3 addf,
    TRef.nullary main_call2.cst_0 (constant S_ .f32 0x3F800000#32),
    TRef.unary main_call2.cst_0 main_call2.v4 (broadcastInDim S64x512x1024 ![] bcast_S_S64x512x1024),
    TRef.binary main_call2.v4 main_call2.v3 main_call2.v5 Host.divf,
    TRef.binary (.of main_v27 : TRef sig ⟨S64x512x1024, .f32⟩) main_call2.v5 main_call2.v6 mulf,
    binary main_v28 main_arg4 main_v29 ((fun l r => Host.dotGeneral dot_S64x512x1024_S64x1024x512_S64x512x512_2_1_1_2_0_0 none l r) : (⟨S64x512x1024, .f32⟩ : BufTy).Contents (Elt F) → (⟨S64x1024x512, .f32⟩ : BufTy).Contents (Elt F) → (⟨S64x512x512, .f32⟩ : BufTy).Contents (Elt F)),
    reshape main_v29 main_v30 rfl shapeCasts_S64x512x512_S32768x512,
    unary main_v18 main_v31 (broadcastInDim S32768x1 ![0] bcast_S32768_S32768x1_0 : (⟨S32768, .f32⟩ : BufTy).Contents (Elt F) → (⟨S32768x1, .f32⟩ : BufTy).Contents (Elt F)),
    unary main_v31 main_v32 (broadcastInDim S32768x512 ![0, 1] bcast_S32768x1_S32768x512_0_1 : (⟨S32768x1, .f32⟩ : BufTy).Contents (Elt F) → (⟨S32768x512, .f32⟩ : BufTy).Contents (Elt F)),
    binary main_v30 main_v32 main_v33 (mulf : (⟨S32768x512, .f32⟩ : BufTy).Contents (Elt F) → (⟨S32768x512, .f32⟩ : BufTy).Contents (Elt F) → (⟨S32768x512, .f32⟩ : BufTy).Contents (Elt F)),
    nullary main_cst (constant S_ .f32 0x00000000#32),
    unary main_cst main_v34 (broadcastInDim S16384x512 ![] bcast_S_S16384x512 : (⟨S_, .f32⟩ : BufTy).Contents (Elt F) → (⟨S16384x512, .f32⟩ : BufTy).Contents (Elt F)),
    nullary main_c_6 (constantI S_ 32 0#32),
    unary main_c_6 main_v35 (broadcastInDim S32768 ![] bcast_S_S32768 : (⟨S_, .i32⟩ : BufTy).Contents (Elt F) → (⟨S32768, .i32⟩ : BufTy).Contents (Elt F)),
    binary main_v11 main_v35 main_v36 (cmpi .slt : (⟨S32768, .i32⟩ : BufTy).Contents (Elt F) → (⟨S32768, .i32⟩ : BufTy).Contents (Elt F) → (⟨S32768, .i1⟩ : BufTy).Contents (Elt F)),
    nullary main_c_7 (constantI S_ 32 16384#32),
    unary main_c_7 main_v37 (broadcastInDim S32768 ![] bcast_S_S32768 : (⟨S_, .i32⟩ : BufTy).Contents (Elt F) → (⟨S32768, .i32⟩ : BufTy).Contents (Elt F)),
    binary main_v11 main_v37 main_v38 (addi : (⟨S32768, .i32⟩ : BufTy).Contents (Elt F) → (⟨S32768, .i32⟩ : BufTy).Contents (Elt F) → (⟨S32768, .i32⟩ : BufTy).Contents (Elt F)),
    ternary main_v36 main_v38 main_v11 main_v39 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v39 main_v40 (broadcastInDim S32768x1 ![0] bcast_S32768_S32768x1_0 : (⟨S32768, .i32⟩ : BufTy).Contents (Elt F) → (⟨S32768x1, .i32⟩ : BufTy).Contents (Elt F)),
    ternary main_v34 main_v40 main_v33 main_v41 ((fun x i u => Host.scatterAdd scatter_S16384x512_S32768x1_S32768x512_1_0_0_1 x i u) : (⟨S16384x512, .f32⟩ : BufTy).Contents (Elt F) → (⟨S32768x1, .i32⟩ : BufTy).Contents (Elt F) → (⟨S32768x512, .f32⟩ : BufTy).Contents (Elt F) → (⟨S16384x512, .f32⟩ : BufTy).Contents (Elt F)) ]

/-- The program is that straight line: the called functions unfolded at their calls, both sides are one chain of steps,
    equal by computation. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨reshape_bufs_sub .., reshape_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., reshape_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

end Line

attribute [local irreducible] Host.sort2 Host.gather Host.scatterAdd FloatOps.dotGeneral in
/-- The composition at the result buffer is `refOut` of the contents of the argument buffers: each of the spec's
    definitions is the composition of the operations it names, and the sort, the gathers, the products and the
    scatter-add stand on both sides as the same operations of the same arrays. -/
theorem out_eq (V : Valuation τ sig (Elt Ideal)) :
    after (ops (F := Ideal)) V (main_v41 : DevRef τ sig)
      = Cert.MoE.refOut (V (main_arg0 : DevRef τ sig)) (V (main_arg1 : DevRef τ sig)) (V (main_arg2 : DevRef τ sig))
          (V (main_arg3 : DevRef τ sig)) (V (main_arg4 : DevRef τ sig)) := by
  after_results_simp
  rfl

/-- On every device, from any memory with zero counters: every weakly fair execution of the program terminates with
    the result buffer at `refOut` of the five argument arrays, and those arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41)
          = Cert.MoE.refOut (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v41).trans (out_eq _),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.Run

end
-- ==== Proof.lean ====
/-
  A mixture-of-experts feed-forward layer: the kernel's program against the plain reference.

  Both programs sort the 32768 (token, slot) assignments by expert id, gather the tokens' rows in that order, send
  group e of 512 consecutive rows through expert e (two matrix products around silu), scale each row by its routing
  weight and add it into its token's output row. The kernel's program computes the middle step group by group on the
  grid, with the weight applied inside the group and silu spelled with the logistic function; the reference computes it
  with two batched products, silu spelled as z · (1 / (1 + exp (−z))), and the weight applied after flattening. Over the
  extended reals these are one array (`Cert.MoE.kerOut_eq_refOut`): the products are the same sums, the two
  spellings of the logistic function are one function, and a change of float format is the identity. The sort, the
  gathers and the scatter-add are the same operations of the same arrays on both sides and are never opened; no
  entry's finiteness is used.
-/
import proofs.«123885_j63668595196398_1_alg».proof.Defs
import proofs.«123885_j63668595196398_1_alg».proof.Proof.Gen.Kernel
import proofs.«123885_j63668595196398_1_alg».proof.Proof.Gen.Kernel.Frame
import proofs.«123885_j63668595196398_1_alg».proof.Proof.Gen.KernelIdeal
import proofs.«123885_j63668595196398_1_alg».proof.Proof.Gen.KernelIdeal.Frame
import proofs.«123885_j63668595196398_1_alg».proof.Proof.Gen.ReferenceIdeal
import proofs.«123885_j63668595196398_1_alg».proof.Proof.Gen.Pre_finite_inputs
import proofs.«123885_j63668595196398_1_alg».proof.Proof.Weighted
import proofs.«123885_j63668595196398_1_alg».proof.Proof.KerRun
import proofs.«123885_j63668595196398_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Run.run m ρ)

/-- Both runs end at the spec's array of the arguments: the kernel's at `kerOut`, the reference's at `refOut`, which
    are equal. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Run.run m' ρ')
  rw [(hagree c).1, (hagree c).2.1, (hagree c).2.2.1, (hagree c).2.2.2.1, (hagree c).2.2.2.2]
  exact (Cert.MoE.kerOut_eq_refOut _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
